-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  main_v8
-- ==== Kernel.lean ====
abbrev S4x4096x64 : Shape := ⟨3, ![4, 4096, 64]⟩
abbrev S1x1024x64 : Shape := ⟨3, ![1, 1024, 64]⟩
abbrev S1x4096x64 : Shape := ⟨3, ![1, 4096, 64]⟩
abbrev S1024x64 : Shape := ⟨2, ![1024, 64]⟩
abbrev S1024x1 : Shape := ⟨2, ![1024, 1]⟩
abbrev S1x512x64 : Shape := ⟨3, ![1, 512, 64]⟩
abbrev S512x64 : Shape := ⟨2, ![512, 64]⟩
abbrev S1024x512 : Shape := ⟨2, ![1024, 512]⟩
abbrev S1024 : Shape := ⟨1, ![1024]⟩

abbrev nBuf : Space → Nat
  | .hbm => 5
  | .vmem => 6
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .bf16⟩
  | .hbm, ⟨3, _⟩ => ⟨S4x4096x64, .bf16⟩
  | .hbm, ⟨4, _⟩ => ⟨S4x4096x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x1024x64, .f32⟩
  | .local _ .vmem, ⟨5, _⟩ => ⟨S1x1024x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c512_i32 : BitVec 32 := 512#32
  let v5 : BitVec 32 := Scalar.muli c0_i32 c512_i32
  v5
def k0_off1 (c0_i32 : BitVec 32) : Fin 3 → Nat :=
  let c0_4 : Index := 0#32
  let c512_i32 : BitVec 32 := 512#32
  let v5 : BitVec 32 := Scalar.muli c0_i32 c512_i32
  let v6 : BitVec 32 := v5
  let v7 : Index := Scalar.indexCast v6
  let c0_5 : Index := 0#32
  ![0, v7.toNat, 0]
def k0_mult2 : BitVec 32 :=
  let c1_i32 : BitVec 32 := 1#32
  let c512_i32_10 : BitVec 32 := 512#32
  let v28 : BitVec 32 := Scalar.muli c1_i32 c512_i32_10
  v28
def k0_mult3 : BitVec 32 :=
  let c2_i32 : BitVec 32 := 2#32
  let c512_i32_17 : BitVec 32 := 512#32
  let v51 : BitVec 32 := Scalar.muli c2_i32 c512_i32_17
  v51
def k0_mult4 : BitVec 32 :=
  let c3_i32 : BitVec 32 := 3#32
  let c512_i32_24 : BitVec 32 := 512#32
  let v74 : BitVec 32 := Scalar.muli c3_i32 c512_i32_24
  v74
def k0_mult5 : BitVec 32 :=
  let c4_i32 : BitVec 32 := 4#32
  let c512_i32_31 : BitVec 32 := 512#32
  let v97 : BitVec 32 := Scalar.muli c4_i32 c512_i32_31
  v97
def k0_mult6 : BitVec 32 :=
  let c5_i32 : BitVec 32 := 5#32
  let c512_i32_38 : BitVec 32 := 512#32
  let v120 : BitVec 32 := Scalar.muli c5_i32 c512_i32_38
  v120
def k0_mult7 : BitVec 32 :=
  let c6_i32 : BitVec 32 := 6#32
  let c512_i32_45 : BitVec 32 := 512#32
  let v143 : BitVec 32 := Scalar.muli c6_i32 c512_i32_45
  v143
def k0_mult8 : BitVec 32 :=
  let c7_i32 : BitVec 32 := 7#32
  let c512_i32_52 : BitVec 32 := 512#32
  let v166 : BitVec 32 := Scalar.muli c7_i32 c512_i32_52
  v166
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  h_S1x512x64 : 0 < S1x512x64.numel
  shapeCasts_S1x512x64_S512x64 : S1x512x64.ShapeCasts S512x64
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  shapeCasts_S1024x64_S1x1024x64 : S1024x64.ShapeCasts S1x1024x64
  dot_S1024x64_S512x64_S1024x512_1_1_0_0_n_n_wf : DotDims.WF S1024x64 S512x64 S1024x512 [1] [1] [0] [0] [] []
  dot_S1024x512_S512x64_S1024x64_1_0_0_1_n_n_wf : DotDims.WF S1024x512 S512x64 S1024x64 [1] [0] [0] [1] [] []
  hrank0 : 0 < grid0.rank
  k0_mult1_dvd : 512 ∣ k0_mult1.toNat
  k0_off1_inb : ∀ (r : Fin 8), ∀ a, (k0_off1 (BitVec.ofNat 32 r.val)) a + S1x512x64.size a ≤ S1x4096x64.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x4096x64.size a
  hwx0_0 : ∀ i : grid0.Coords, EltTy.bits .bf16 = 32 ∨ (Rect.block (s := S4x4096x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .bf16 = 32 ∨ (Rect.block (s := S4x4096x64) S1x4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x4096x64.size a
  hwx0_2 : ∀ i : grid0.Coords, EltTy.bits .f32 = 32 ∨ (Rect.block (s := S4x4096x64) S1x1024x64.size (cc0_transform_2 i) (hinb0_2 i)).WholeWords (EltTy.packing .f32)

variable [Facts₀]

def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x4096, .f32⟩
  | .hbm, ⟨3, _⟩ => ⟨S_, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S4x4096x1, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Spec.lean ====
/-
  What both programs compute, over the reals.  For one batch b and one query row q the scores are
  s v = Σ_k Q[b,q,k] · V[b,v,k] (v over the 4096 value rows), and the result row is the average of the
  value rows weighted by softmax s:
      out[b,q,d] = (Σ_v exp (s v) · V[b,v,d]) / (Σ_v exp (s v)).
  The weights are written WITHOUT a shift by the row maximum: exp (s v - c) = exp (-c) · exp (s v) for every
  real c, and the common factor exp (-c) cancels between numerator and denominator, so any real shift
  (the reference's row maximum, the kernel's running maximum) gives this same quotient.
-/
import Idealize.ShloMosaic.PureOps.Ideal
import Idealize.ShloMosaic.Lib.ValueIdx

noncomputable section

namespace Cert.Attn

open Idealize.ShloMosaic Idealize.ShloMosaic.ValueIdx

/-- The argument and result arrays: [batch 4, rows 4096, features 64]. -/
abbrev SA : Shape := ⟨3, ![4, 4096, 64]⟩
/-- One block of 1024 query rows of one batch. -/
abbrev SQB : Shape := ⟨3, ![1, 1024, 64]⟩
/-- All 4096 value rows of one batch. -/
abbrev SVB : Shape := ⟨3, ![1, 4096, 64]⟩

/-- The average of `w` weighted by `exp ∘ s`: `(Σ_v exp (s v) · w v) / (Σ_v exp (s v))`. -/
def smAvg {n : ℕ} (s w : Fin n → ℝ) : ℝ := (∑ v, Real.exp (s v) * w v) / (∑ v, Real.exp (s v))

/-- The score of query row `q` against value row `v` in batch `b`. -/
def score (Q V : SA.Idx → ℝ) (b : Fin 4) (q v : Fin 4096) : ℝ := ∑ k : Fin 64, Q (ix3 b q k) * V (ix3 b v k)

/-- Attention with keys = values, no scale, no mask, over the reals. -/
def attn (Q V : SA.Idx → ℝ) (i : SA.Idx) : ℝ :=
  smAvg (fun v => score Q V (i 0) (i 1) v) (fun v => V (ix3 (i 0) v (i 2)))

/-- The same on one block of query rows against one batch's value rows. -/
def bscore (q : SQB.Idx → ℝ) (v : SVB.Idx → ℝ) (r : Fin 1024) (u : Fin 4096) : ℝ :=
  ∑ k : Fin 64, q (ix3 0 r k) * v (ix3 0 u k)

def battn (q : SQB.Idx → ℝ) (v : SVB.Idx → ℝ) (y : SQB.Idx) : ℝ :=
  smAvg (fun u => bscore q v (y 1) u) (fun u => v (ix3 0 u (y 2)))

end Cert.Attn

end
-- ==== Proof.Finite.lean ====
import proofs.«409118_j30975304139057_3_alg».proof.Pre_finite_inputs
import proofs.«409118_j30975304139057_3_alg».proof.Proof.Gen.Pre_finite_inputs
import proofs.«409118_j30975304139057_3_alg».proof.Proof.Spec
import Idealize.ShloMosaic.Lib.ReduceAll

noncomputable section

namespace Cert.Attn

open Idealize.ShloMosaic Idealize.ShloMosaic.ValueIdx

private instance : Subsingleton Cert.Pre_finite_inputs.S_.Idx := ⟨fun a b => funext fun d => d.elim0⟩

/-- The f32 pattern 0x7F800000 denotes +∞. -/
private theorem top_f32 : Ideal.ofBits .f32 0x7F800000#32 = (⊤ : EReal) := by
  simp [Ideal.ofBits, Ideal.ieee]

/-- An extended real whose absolute value max x (-x) lies below +∞ is neither infinity, hence a real. -/
private theorem real_of_abs_lt_top (x : EReal) (hx : max x (-x) < ⊤) : x = ((x.toReal : ℝ) : EReal) := by
  induction x using EReal.rec with
  | bot => simp at hx
  | top => simp at hx
  | coe r => simp

/-- One element of the compared array being 1 says |x i| < +∞. -/
private theorem abs_lt_top_of_cmp [Cert.Pre_finite_inputs.Facts]
    (x : FVec Ideal Cert.Pre_finite_inputs.S4x4096x64 .f32) (i : Cert.Pre_finite_inputs.S4x4096x64.Idx)
    (e : cmpf CmpFPredicate.olt (Host.absf x)
          (broadcastInDim Cert.Pre_finite_inputs.S4x4096x64 ![] Cert.Pre_finite_inputs.Facts.bcast_S_S4x4096x64
            (constant Cert.Pre_finite_inputs.S_ FTy.f32 0x7F800000#32)) i = 1#1) :
    max (x i) (-(x i)) < (⊤ : EReal) := by
  have e' : Ideal.cmp .olt (max (x i) (-(x i))) (Ideal.ofBits .f32 0x7F800000#32) = 1#1 := e
  rw [top_f32] at e'
  by_contra hlt
  simp only [Ideal.cmp, hlt, decide_false, BitVec.ofBool_false] at e'
  exact absurd e' (by decide)

/-- Under the precondition (every entry of both inputs has |x| < +∞) both inputs are arrays of reals. -/
theorem real_of_pre [Cert.Pre_finite_inputs.Facts] (x0 x1 : FVec Ideal Cert.Pre_finite_inputs.S4x4096x64 .f32)
    (h : Cert.Pre_finite_inputs.fn (F := Ideal) x0 x1 = fun _ => 1#1) :
    ∃ Qr Vr : SA.Idx → ℝ, (∀ i, x0 i = ((Qr i : ℝ) : EReal)) ∧ (∀ i, x1 i = ((Vr i : ℝ) : EReal)) := by
  have h0 := congrFun h ValueIdx.ix0
  unfold Cert.Pre_finite_inputs.fn at h0
  dsimp only at h0
  obtain ⟨ha, hb⟩ := IntOp.andi_eq_one.1 h0
  refine ⟨fun i => (x0 i).toReal, fun i => (x1 i).toReal, fun i => ?_, fun i => ?_⟩
  · exact real_of_abs_lt_top _ (abs_lt_top_of_cmp x0 i (Host.reduce_andi_all _ _ _ _ _ ha i))
  · exact real_of_abs_lt_top _ (abs_lt_top_of_cmp x1 i (Host.reduce_andi_all _ _ _ _ _ hb i))

end Cert.Attn

end
-- ==== Proof.RefValue.lean ====
import proofs.«409118_j30975304139057_3_alg».proof.Proof.Gen.ReferenceIdeal.Read
import proofs.«409118_j30975304139057_3_alg».proof.Proof.Spec

noncomputable section

namespace Cert.Attn

open Idealize.ShloMosaic Idealize.ShloMosaic.ValueIdx Cert.ReferenceIdeal

/-- A coercion of a real passes through a finite sum. -/
private theorem coe_sum' {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Shifting every score by one real constant c does not change the weighted average:
    exp (s v - c) = exp (s v) * exp (-c), and the positive factor exp (-c) cancels between the
    weights' numerators and their sum. -/
private theorem smAvg_shift {n : ℕ} (hn : 0 < n) (s w : Fin n → ℝ) (c : ℝ) :
    ∑ v, (Real.exp (s v - c) / ∑ u, Real.exp (s u - c)) * w v = smAvg s w := by
  haveI : Nonempty (Fin n) := ⟨⟨0, hn⟩⟩
  have hpos : 0 < ∑ u : Fin n, Real.exp (s u) :=
    Finset.sum_pos (fun u _ => Real.exp_pos _) Finset.univ_nonempty
  have hc : Real.exp (-c) ≠ 0 := (Real.exp_pos _).ne'
  have hsub : ∀ u, Real.exp (s u - c) = Real.exp (s u) * Real.exp (-c) := fun u => by
    rw [sub_eq_add_neg, Real.exp_add]
  have hZ : ∑ u, Real.exp (s u - c) = (∑ u, Real.exp (s u)) * Real.exp (-c) := by
    rw [Finset.sum_mul]; exact Finset.sum_congr rfl fun u _ => hsub u
  unfold smAvg
  rw [hZ, Finset.sum_div]
  refine Finset.sum_congr rfl fun v _ => ?_
  rw [hsub v]
  field_simp

/-- The fold of max from −∞ over a nonempty finite family of reals is a real. -/
private theorem fold_max_coe {ι : Type*} (s : Finset ι) (f : ι → ℝ) (hs : s.Nonempty) :
    ∃ b : ℝ, s.fold max (⊥ : EReal) (fun j => ((f j : ℝ) : EReal)) = (b : EReal) := by
  classical
  induction s using Finset.induction_on with
  | empty => exact absurd hs (by simp)
  | insert a s ha ih =>
    rw [Finset.fold_insert ha]
    rcases s.eq_empty_or_nonempty with h | h
    · subst h
      exact ⟨f a, by simp⟩
    · obtain ⟨b, hb⟩ := ih h
      exact ⟨max (f a) b, by rw [hb]; exact (EReal.coe_strictMono.monotone.map_max).symm⟩

/-- Every entry of the reference's score array is the real score. -/
private theorem v0_eq (Qr Vr : SA.Idx → ℝ) (x0 x1 : (⟨S4x4096x64, .f32⟩ : BufTy).Contents (Elt Ideal))
    (h0 : ∀ i, x0 i = ((Qr i : ℝ) : EReal)) (h1 : ∀ i, x1 i = ((Vr i : ℝ) : EReal)) (i : S4x4096x4096.Idx) :
    Read.val_main_v0 (F := Ideal) x0 x1 i = ((score Qr Vr (i 0) (i 1) (i 2) : ℝ) : EReal) := by
  rw [Read.val_main_v0_apply]
  unfold score
  rw [coe_sum']
  refine Finset.sum_congr rfl fun k _ => ?_
  have el : Read.lidx_main_v0 i k = ix3 (n0 := 4) (n1 := 4096) (n2 := 64) (i 0) (i 1) k :=
    funext fun a => Fin.ext (by match a with | ⟨0, _⟩ => rfl | ⟨1, _⟩ => rfl | ⟨2, _⟩ => rfl)
  have er : Read.ridx_main_v0 i k = ix3 (n0 := 4) (n1 := 4096) (n2 := 64) (i 0) (i 2) k :=
    funext fun a => Fin.ext (by match a with | ⟨0, _⟩ => rfl | ⟨1, _⟩ => rfl | ⟨2, _⟩ => rfl)
  rw [el, er, h0, h1, EReal.coe_mul]

/-- The row maximum the reference subtracts is a real number: it is the maximum, from −∞, of the 4096
    real scores of the row. -/
private theorem v3_real (Qr Vr : SA.Idx → ℝ) (x0 x1 : (⟨S4x4096x64, .f32⟩ : BufTy).Contents (Elt Ideal))
    (h0 : ∀ i, x0 i = ((Qr i : ℝ) : EReal)) (h1 : ∀ i, x1 i = ((Vr i : ℝ) : EReal)) (j : S4x4096.Idx) :
    ∃ c : ℝ, Read.val_main_v3 (F := Ideal) x0 x1 j = (c : EReal) := by
  have hbot : Ideal.ofBits .f32 0xFF800000#32 = (⊥ : EReal) := by simp [Ideal.ofBits, Ideal.ieee]
  have h : S4x4096x4096.Reduces [2] S4x4096 := by decide
  have h1r : ∃ m : ℝ, Read.val_main_v1 (F := Ideal) x0 x1 j = (m : EReal) := by
    unfold Read.val_main_v1
    rw [Host.reduce_eq_fold_single FloatOps.maximumf _ _ _ h _ j]
    have hfun : (Read.val_main_v0 (F := Ideal) x0 x1 ∘ h.lift j)
        = fun k => ((score Qr Vr ((h.lift j k) 0) ((h.lift j k) 1) ((h.lift j k) 2) : ℝ) : EReal) :=
      funext fun k => v0_eq Qr Vr x0 x1 h0 h1 _
    rw [hfun, Read.val_main_cst_apply]
    show ∃ m : ℝ, Finset.fold max (Ideal.ofBits .f32 0xFF800000#32) _ _ = (m : EReal)
    rw [hbot]
    exact fold_max_coe Finset.univ _ ⟨⟨0, by decide⟩, Finset.mem_univ _⟩
  obtain ⟨m, hm⟩ := h1r
  refine ⟨m, ?_⟩
  rw [Read.val_main_v3_apply, hm, Read.val_main_v2_apply, Read.val_main_cst_0_apply]
  show max (Ideal.ofBits .f32 0xFF800000#32) (m : EReal) = m
  rw [hbot]; exact max_eq_right bot_le

/-- With the row's shift a real c, the exponentiated entry is the real exp (score - c). -/
private theorem v7_row (Qr Vr : SA.Idx → ℝ) (x0 x1 : (⟨S4x4096x64, .f32⟩ : BufTy).Contents (Elt Ideal))
    (h0 : ∀ i, x0 i = ((Qr i : ℝ) : EReal)) (h1 : ∀ i, x1 i = ((Vr i : ℝ) : EReal))
    (b : Fin 4) (q v : Fin 4096) (c : ℝ)
    (hc : Read.val_main_v3 (F := Ideal) x0 x1 (ix2 b q) = (c : EReal)) :
    Read.val_main_v7 (F := Ideal) x0 x1 (ix3 b q v) = ((Real.exp (score Qr Vr b q v - c) : ℝ) : EReal) := by
  have e : Read.idx_main_v4 (Read.idx_main_v5 (ix3 b q v)) = ix2 b q :=
    funext fun a => Fin.ext (by match a with | ⟨0, _⟩ => rfl | ⟨1, _⟩ => rfl)
  rw [Read.val_main_v7_apply, Read.val_main_v6_apply, Read.val_main_v5_apply, Read.val_main_v4_apply, e, hc,
    v0_eq Qr Vr x0 x1 h0 h1]
  show Ideal.exp (((score Qr Vr b q v : ℝ) : EReal) - (c : EReal)) = _
  rw [← EReal.coe_sub, Ideal.exp_coe]

/-- The row's sum of exponentials is the real sum. -/
private theorem v8_row (Qr Vr : SA.Idx → ℝ) (x0 x1 : (⟨S4x4096x64, .f32⟩ : BufTy).Contents (Elt Ideal))
    (h0 : ∀ i, x0 i = ((Qr i : ℝ) : EReal)) (h1 : ∀ i, x1 i = ((Vr i : ℝ) : EReal))
    (b : Fin 4) (q : Fin 4096) (c : ℝ)
    (hc : Read.val_main_v3 (F := Ideal) x0 x1 (ix2 b q) = (c : EReal)) :
    Read.val_main_v8 (F := Ideal) x0 x1 (ix2 b q)
      = ((∑ v : Fin 4096, Real.exp (score Qr Vr b q v - c) : ℝ) : EReal) := by
  rw [Read.val_main_v8_apply, Read.val_main_cst_1_apply]
  show Ideal.ofBits .f32 0x00000000#32 + _ = _
  rw [Ideal.ofBits_zero_f32, zero_add, coe_sum']
  refine Finset.sum_congr rfl fun k _ => ?_
  have e : Read.idx_main_v8 (ix2 b q) k = ix3 b q k :=
    funext fun a => Fin.ext (by match a with | ⟨0, _⟩ => rfl | ⟨1, _⟩ => rfl | ⟨2, _⟩ => rfl)
  rw [e]
  exact v7_row Qr Vr x0 x1 h0 h1 b q k c hc

/-- The normalized weight is the real quotient: the row's sum is a positive real. -/
private theorem v11_row (Qr Vr : SA.Idx → ℝ) (x0 x1 : (⟨S4x4096x64, .f32⟩ : BufTy).Contents (Elt Ideal))
    (h0 : ∀ i, x0 i = ((Qr i : ℝ) : EReal)) (h1 : ∀ i, x1 i = ((Vr i : ℝ) : EReal))
    (b : Fin 4) (q v : Fin 4096) (c : ℝ)
    (hc : Read.val_main_v3 (F := Ideal) x0 x1 (ix2 b q) = (c : EReal)) :
    Read.val_main_v11 (F := Ideal) x0 x1 (ix3 b q v)
      = ((Real.exp (score Qr Vr b q v - c) / ∑ u : Fin 4096, Real.exp (score Qr Vr b q u - c) : ℝ) : EReal) := by
  have e : Read.idx_main_v9 (Read.idx_main_v10 (ix3 b q v)) = ix2 b q :=
    funext fun a => Fin.ext (by match a with | ⟨0, _⟩ => rfl | ⟨1, _⟩ => rfl)
  have hZ : (∑ u : Fin 4096, Real.exp (score Qr Vr b q u - c)) ≠ 0 :=
    (Finset.sum_pos (fun u _ => Real.exp_pos _) ⟨⟨0, by decide⟩, Finset.mem_univ _⟩).ne'
  rw [Read.val_main_v11_apply, Read.val_main_v10_apply, Read.val_main_v9_apply, e,
    v8_row Qr Vr x0 x1 h0 h1 b q c hc, v7_row Qr Vr x0 x1 h0 h1 b q v c hc]
  show Ideal.div _ _ = _
  rw [Ideal.div_coe hZ, ← EReal.coe_mul, mul_one_div]

/-- On arrays of reals the reference's result is `attn`, index by index. -/
theorem ref_eq (Qr Vr : SA.Idx → ℝ) (x0 x1 : (⟨S4x4096x64, .f32⟩ : BufTy).Contents (Elt Ideal))
    (h0 : ∀ i, x0 i = ((Qr i : ℝ) : EReal)) (h1 : ∀ i, x1 i = ((Vr i : ℝ) : EReal)) :
    Cert.ReferenceIdeal.Read.val_main_v12 (F := Ideal) x0 x1 = fun i => ((attn Qr Vr i : ℝ) : EReal) := by
  funext i
  obtain ⟨c, hc⟩ := v3_real Qr Vr x0 x1 h0 h1 (ix2 (n0 := 4) (n1 := 4096) (i 0) (i 1))
  rw [Read.val_main_v12_apply]
  have hterm : ∀ k : Fin 4096,
      Read.val_main_v11 (F := Ideal) x0 x1 (Read.lidx_main_v12 i k) * x1 (Read.ridx_main_v12 i k)
        = (((Real.exp (score Qr Vr (i 0) (i 1) k - c) / ∑ u : Fin 4096, Real.exp (score Qr Vr (i 0) (i 1) u - c))
            * Vr (ix3 (i 0) k (i 2)) : ℝ) : EReal) := by
    intro k
    have el : Read.lidx_main_v12 i k = ix3 (n0 := 4) (n1 := 4096) (n2 := 4096) (i 0) (i 1) k :=
      funext fun a => Fin.ext (by match a with | ⟨0, _⟩ => rfl | ⟨1, _⟩ => rfl | ⟨2, _⟩ => rfl)
    have er : Read.ridx_main_v12 i k = ix3 (n0 := 4) (n1 := 4096) (n2 := 64) (i 0) k (i 2) :=
      funext fun a => Fin.ext (by match a with | ⟨0, _⟩ => rfl | ⟨1, _⟩ => rfl | ⟨2, _⟩ => rfl)
    rw [el, er, v11_row Qr Vr x0 x1 h0 h1 (i 0) (i 1) k c hc, h1, ← EReal.coe_mul]
  rw [Finset.sum_congr rfl fun k _ => hterm k, ← coe_sum']
  refine congrArg _ ?_
  exact smAvg_shift (by decide) _ _ c

end Cert.Attn

end
-- ==== Proof.Reads.lean ====
import proofs.«409118_j30975304139057_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Attn.Reads

open Idealize.ShloMosaic Idealize.ShloMosaic.ValueIdx Cert.KernelIdeal Cert.KernelIdeal.Facts₀

/-! ## The two products' operand indices, axis by axis -/

/-- Scores: the left operand's row is the result's row. -/
theorem lhs_qk_0 (i : S1024x512.Idx) (q : dot_S1024x64_S512x64_S1024x512_1_1_0_0_n_n.contr.Idx) :
    (dot_S1024x64_S512x64_S1024x512_1_1_0_0_n_n.lhsIdx i q 0).val = (i 0).val := by
  unfold DotDims.lhsIdx
  rw [dif_neg (show ¬(0 : Fin S1024x64.rank) ∈ dot_S1024x64_S512x64_S1024x512_1_1_0_0_n_n.lhsBatch by decide), dif_pos (show (0 : Fin S1024x64.rank) ∈ dot_S1024x64_S512x64_S1024x512_1_1_0_0_n_n.lhsNonContracting by decide)]
  rfl
/-- Scores: the left operand's column is the contraction position. -/
theorem lhs_qk_1 (i : S1024x512.Idx) (q : dot_S1024x64_S512x64_S1024x512_1_1_0_0_n_n.contr.Idx) :
    (dot_S1024x64_S512x64_S1024x512_1_1_0_0_n_n.lhsIdx i q 1).val = (q ⟨0, by decide⟩).val :=
  dot_S1024x64_S512x64_S1024x512_1_1_0_0_n_n.lhsIdx_val_of_single rfl i q
/-- Scores: the right operand's row is the result's column. -/
theorem rhs_qk_0 (i : S1024x512.Idx) (q : dot_S1024x64_S512x64_S1024x512_1_1_0_0_n_n.contr.Idx) :
    (dot_S1024x64_S512x64_S1024x512_1_1_0_0_n_n.rhsIdx i q 0).val = (i 1).val := by
  unfold DotDims.rhsIdx
  rw [dif_neg (show ¬(0 : Fin S512x64.rank) ∈ dot_S1024x64_S512x64_S1024x512_1_1_0_0_n_n.rhsBatch by decide), dif_pos (show (0 : Fin S512x64.rank) ∈ dot_S1024x64_S512x64_S1024x512_1_1_0_0_n_n.rhsNonContracting by decide)]
  rfl
/-- Scores: the right operand's column is the contraction position. -/
theorem rhs_qk_1 (i : S1024x512.Idx) (q : dot_S1024x64_S512x64_S1024x512_1_1_0_0_n_n.contr.Idx) :
    (dot_S1024x64_S512x64_S1024x512_1_1_0_0_n_n.rhsIdx i q 1).val = (q ⟨0, by decide⟩).val :=
  dot_S1024x64_S512x64_S1024x512_1_1_0_0_n_n.rhsIdx_val_of_single rfl i q

/-- Weighted rows: the left operand's row is the result's row. -/
theorem lhs_pv_0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
/-- Weighted rows: the left operand's column is the contraction position. -/
theorem lhs_pv_1 (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
/-- Weighted rows: the right operand's row is the contraction position. -/
theorem rhs_pv_0 (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
/-- Weighted rows: the right operand's column is the result's column. -/
theorem rhs_pv_1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- The scores of a query block against a chunk of value rows: entry (r, j) is the inner product of query row r and value row j. -/
theorem qk_apply (q : FVec Ideal S1024x64 .bf16) (c : FVec Ideal S512x64 .bf16) (r : Fin 1024) (j : Fin 512) :
    matmul dot_S1024x64_S512x64_S1024x512_1_1_0_0_n_n none q c (constant S1024x512 .f32 0x00000000#32) (ix2 r j)
      = ∑ k : Fin 64, q (ix2 r k) * c (ix2 j k) := by
  simp only [matmul]
  rw [Ideal.matmul_constant_zero_apply, ← Equiv.sum_comp (ValueIdx.contrEquiv1 dot_S1024x64_S512x64_S1024x512_1_1_0_0_n_n 64 rfl rfl).symm]
  refine Finset.sum_congr rfl fun k _ => ?_
  have hk := ValueIdx.contrEquiv1_symm_val dot_S1024x64_S512x64_S1024x512_1_1_0_0_n_n 64 rfl rfl k
  have el : dot_S1024x64_S512x64_S1024x512_1_1_0_0_n_n.lhsIdx (ix2 r j) ((ValueIdx.contrEquiv1 dot_S1024x64_S512x64_S1024x512_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S1024x64_S512x64_S1024x512_1_1_0_0_n_n.rhsIdx (ix2 r j) ((ValueIdx.contrEquiv1 dot_S1024x64_S512x64_S1024x512_1_1_0_0_n_n 64 rfl rfl).symm k) = ix2 j k := funext fun a => Fin.ext (by
    match a with
    | ⟨0, _⟩ => exact rhs_qk_0 _ _
    | ⟨1, _⟩ => exact (rhs_qk_1 _ _).trans hk)
  rw [el, er]

/-- Weights times value rows: entry (r, d) is Σ_j p[r,j] · c[j,d]. -/
theorem pv_apply (p : FVec Ideal S1024x512 .bf16) (c : FVec Ideal S512x64 .bf16) (r : Fin 1024) (d : Fin 64) :
    matmul dot_S1024x512_S512x64_S1024x64_1_0_0_1_n_n none p c (constant S1024x64 .f32 0x00000000#32) (ix2 r d)
      = ∑ j : Fin 512, p (ix2 r j) * c (ix2 j d) := by
  simp only [matmul]
  rw [Ideal.matmul_constant_zero_apply, ← Equiv.sum_comp (ValueIdx.contrEquiv1 dot_S1024x512_S512x64_S1024x64_1_0_0_1_n_n 512 rfl rfl).symm]
  refine Finset.sum_congr rfl fun k _ => ?_
  have hk := ValueIdx.contrEquiv1_symm_val dot_S1024x512_S512x64_S1024x64_1_0_0_1_n_n 512 rfl rfl k
  have el : dot_S1024x512_S512x64_S1024x64_1_0_0_1_n_n.lhsIdx (ix2 r d) ((ValueIdx.contrEquiv1 dot_S1024x512_S512x64_S1024x64_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S1024x512_S512x64_S1024x64_1_0_0_1_n_n.rhsIdx (ix2 r d) ((ValueIdx.contrEquiv1 dot_S1024x512_S512x64_S1024x64_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

/-! ## A vector kept as a column, and a column spread along rows -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The bit pattern of f32's negative infinity is the bottom extended real. -/
theorem ofBits_neg_inf_f32 : (FloatOps.ofBits .f32 0xFF800000#32 : Ideal .f32) = (⊥ : EReal) := by
  show Ideal.ofBits .f32 0xFF800000#32 = ⊥
  simp [Ideal.ofBits, Ideal.ieee]

/-- A row's maximum, kept as a column: the fold of `max` from -∞ over the row's 512 entries. -/
theorem rowmax_apply (s : FVec Ideal S1024x512 .f32) (r : Fin 1024) (z : Fin 1) :
    shapeCast S1024x1 (multiReduction .maximumf [1] S1024 s 0xFF800000#32 reduces_S1024x512_S1024 (.inl rfl) rfl) shapeCasts_S1024_S1024x1 (ix2 r z)
      = (Finset.univ : Finset (Fin 512)).fold max (⊥ : EReal) (fun j => s (ix2 r j)) := by
  rw [shapeCast_a_a1_apply]
  refine (Ideal.multiReduction_maximumf_single s _ reduces_S1024x512_S1024 _ _ (ix1 r)).trans ?_
  rw [ofBits_neg_inf_f32]
  have e : (s ∘ reduces_S1024x512_S1024.lift (ix1 r)) = fun j : Fin 512 => s (ix2 r j) :=
    funext fun j => congrArg s (funext fun a => Fin.ext (by
      match a with
      | ⟨0, _⟩ => rfl
      | ⟨1, _⟩ => rfl))
  exact congrArg (fun f : Fin 512 → EReal => Finset.fold max (⊥ : EReal) f Finset.univ) e

/-- A row's sum, kept as a column. -/
theorem rowsum_apply (p : FVec Ideal S1024x512 .f32) (r : Fin 1024) (z : Fin 1) :
    shapeCast S1024x1 (multiReduction .add [1] S1024 p 0x00000000#32 reduces_S1024x512_S1024 (.inl rfl) rfl) shapeCasts_S1024_S1024x1 (ix2 r z)
      = ∑ j : Fin 512, p (ix2 r j) := by
  rw [shapeCast_a_a1_apply]
  refine (Ideal.multiReduction_add_single p _ reduces_S1024x512_S1024 _ _ (ix1 r)).trans ?_
  refine Finset.sum_congr rfl fun j _ => congrArg p (funext fun a => Fin.ext ?_)
  match a with
  | ⟨0, _⟩ => rfl
  | ⟨1, _⟩ => rfl

/-- A column broadcast along the rows of a [1024, 512] tile. -/
theorem bcast512_apply (x : FVec Ideal S1024x1 .f32) (r : Fin 1024) (j : Fin 512) :
    broadcastTo S1024x512 x broadcasts_S1024x1_S1024x512 (ix2 r j) = x (ix2 r 0) :=
  broadcastTo_apply x broadcasts_S1024x1_S1024x512 (ix2 r j) (ix2 r 0) (fun a => match a with
    | ⟨0, _⟩ => by show r.val = if (1024 : Nat) = 1 then 0 else r.val; rw [if_neg (by decide)]
    | ⟨1, _⟩ => by show 0 = if (1 : Nat) = 1 then 0 else j.val; rw [if_pos rfl])

/-- A column broadcast along the rows of a [1024, 64] tile. -/
theorem bcast64_apply (x : FVec Ideal S1024x1 .f32) (r : Fin 1024) (d : Fin 64) :
    broadcastTo S1024x64 x broadcasts_S1024x1_S1024x64 (ix2 r d) = x (ix2 r 0) :=
  broadcastTo_apply x broadcasts_S1024x1_S1024x64 (ix2 r d) (ix2 r 0) (fun a => match a with
    | ⟨0, _⟩ => by show r.val = if (1024 : Nat) = 1 then 0 else r.val; rw [if_neg (by decide)]
    | ⟨1, _⟩ => by show 0 = if (1 : Nat) = 1 then 0 else d.val; rw [if_pos rfl])

/-- Dropping the unit batch axis of the query block. -/
theorem castQ_apply (x : Vec Ideal S1x1024x64 .bf16) (r : Fin 1024) (k : Fin 64) :
    shapeCast S1024x64 x shapeCasts_S1x1024x64_S1024x64 (ix2 r k) = x (ix3 0 r k) :=
  shapeCast_1ab_ab_apply x shapeCasts_S1x1024x64_S1024x64 r k

/-- Dropping the unit batch axis of a chunk of value rows. -/
theorem castV_apply (x : Vec Ideal S1x512x64 .bf16) (j : Fin 512) (k : Fin 64) :
    shapeCast S512x64 x shapeCasts_S1x512x64_S512x64 (ix2 j k) = x (ix3 0 j k) :=
  shapeCast_1ab_ab_apply x shapeCasts_S1x512x64_S512x64 j k

/-- Restoring the unit batch axis of the result block. -/
theorem castOut_apply (x : FVec Ideal S1024x64 .f32) (r : Fin 1024) (d : Fin 64) :
    shapeCast S1x1024x64 x shapeCasts_S1024x64_S1x1024x64 (ix3 0 r d) = x (ix2 r d) :=
  shapeCast_ab_1ab_apply x shapeCasts_S1024x64_S1x1024x64 0 r d

end Cert.Attn.Reads

end
-- ==== Proof.Algebra.lean ====
/-
  The scalar algebra of one chunk of the running softmax, over the reals and lifted to the extended reals.
  With a running maximum a, a running denominator exp (-a) · A and a running numerator exp (-a) · C, a chunk
  with scores s j, value entries w j and a new maximum a' gives
      exp (a - a') · (exp (-a) · A) + Σ_j exp (s j - a')       = exp (-a') · (A + Σ_j exp (s j)),
      exp (a - a') · (exp (-a) · C) + Σ_j exp (s j - a') · w j = exp (-a') · (C + Σ_j exp (s j) · w j),
  because exp (a - a') · exp (-a) = exp (-a') and exp (s - a') = exp (-a') · exp s.  Nothing is asked of a'
  beyond being a real number.
-/
import Idealize.ShloMosaic.PureOps.Ideal

noncomputable section

namespace Cert.Attn

open Idealize.ShloMosaic

/-- The coercion of reals into the extended reals commutes with a finite sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The fold of `max` from -∞ over a finite family of reals is -∞ or a real; -/
theorem fold_max_bot_or_real {ι : Type*} (s : Finset ι) (f : ι → ℝ) :
    s.fold max (⊥ : EReal) (fun j => ((f j : ℝ) : EReal)) = ⊥ ∧ s = ∅
      ∨ ∃ b : ℝ, s.fold max (⊥ : EReal) (fun j => ((f j : ℝ) : EReal)) = (b : EReal) := by
  classical
  induction s using Finset.induction_on with
  | empty => exact Or.inl ⟨Finset.fold_empty, rfl⟩
  | insert a s ha ih =>
    refine Or.inr ?_
    rw [Finset.fold_insert ha]
    rcases ih with ⟨h, -⟩ | ⟨b, h⟩
    · exact ⟨f a, by rw [h, max_bot_right]⟩
    · exact ⟨max (f a) b, by rw [h]; exact (EReal.coe_strictMono.monotone.map_max).symm⟩

/-- over a nonempty index type it is a real. -/
theorem fold_max_real {ι : Type*} [Fintype ι] [Nonempty ι] (f : ι → ℝ) :
    ∃ b : ℝ, (Finset.univ : Finset ι).fold max (⊥ : EReal) (fun j => ((f j : ℝ) : EReal)) = (b : EReal) := by
  rcases fold_max_bot_or_real Finset.univ f with ⟨-, h⟩ | h
  · exact absurd h Finset.univ_nonempty.ne_empty
  · exact h

section Real

variable {n : ℕ}

theorem exp_sub_eq (x a' : ℝ) : Real.exp (x - a') = Real.exp (-a') * Real.exp x := by
  rw [← Real.exp_add]; congr 1; ring

/-- One chunk's update of the denominator, over the reals. -/
theorem real_den (a a' A : ℝ) (s : Fin n → ℝ) :
    Real.exp (a - a') * (Real.exp (-a) * A) + ∑ j, Real.exp (s j - a')
      = Real.exp (-a') * (A + ∑ j, Real.exp (s j)) := by
  have h1 : Real.exp a * Real.exp (-a) = 1 := by rw [← Real.exp_add, add_neg_cancel, Real.exp_zero]
  rw [Finset.sum_congr rfl (fun j _ => exp_sub_eq (s j) a'), ← Finset.mul_sum, exp_sub_eq a a']
  linear_combination (Real.exp (-a') * A) * h1

/-- One chunk's update of the numerator, over the reals. -/
theorem real_num (a a' C : ℝ) (s w : Fin n → ℝ) :
    Real.exp (a - a') * (Real.exp (-a) * C) + ∑ j, Real.exp (s j - a') * w j
      = Real.exp (-a') * (C + ∑ j, Real.exp (s j) * w j) := by
  have h1 : Real.exp a * Real.exp (-a) = 1 := by rw [← Real.exp_add, add_neg_cancel, Real.exp_zero]
  have h2 : ∀ j, Real.exp (s j - a') * w j = Real.exp (-a') * (Real.exp (s j) * w j) := fun j => by
    rw [exp_sub_eq, mul_assoc]
  rw [Finset.sum_congr rfl (fun j _ => h2 j), ← Finset.mul_sum, exp_sub_eq a a']
  linear_combination (Real.exp (-a') * C) * h1

/-- The common factor cancels in the final quotient. -/
theorem real_quot (a A C : ℝ) (hA : A ≠ 0) : Real.exp (-a) * C * (1 / (Real.exp (-a) * A)) = C / A := by
  have := (Real.exp_pos (-a)).ne'
  field_simp

end Real

section Lifted

variable {n : ℕ}

/-- One chunk's update of the denominator, on the extended reals. -/
theorem step_den (a a' A : ℝ) (s : Fin n → ℝ) :
    Ideal.exp ((a : EReal) - (a' : EReal)) * ((Real.exp (-a) * A : ℝ) : EReal) + ∑ j, Ideal.exp (((s j : ℝ) : EReal) - (a' : EReal))
      = ((Real.exp (-a') * (A + ∑ j, Real.exp (s j)) : ℝ) : EReal) := by
  simp only [← EReal.coe_sub, Ideal.exp_coe, ← EReal.coe_mul, ← coe_sum, ← EReal.coe_add]
  rw [real_den]

/-- One chunk's update of the numerator, on the extended reals. -/
theorem step_num (a a' C : ℝ) (s w : Fin n → ℝ) :
    Ideal.exp ((a : EReal) - (a' : EReal)) * ((Real.exp (-a) * C : ℝ) : EReal)
        + ∑ j, Ideal.exp (((s j : ℝ) : EReal) - (a' : EReal)) * ((w j : ℝ) : EReal)
      = ((Real.exp (-a') * (C + ∑ j, Real.exp (s j) * w j) : ℝ) : EReal) := by
  simp only [← EReal.coe_sub, Ideal.exp_coe, ← EReal.coe_mul, ← coe_sum, ← EReal.coe_add]
  rw [real_num]

/-- The first chunk: the running sums start at zero, so whatever the rescaling factor is, the chunk's own sums remain. -/
theorem first_den (x : EReal) (a' : ℝ) (s : Fin n → ℝ) :
    x * (0 : EReal) + ∑ j, Ideal.exp (((s j : ℝ) : EReal) - (a' : EReal))
      = ((Real.exp (-a') * (0 + ∑ j, Real.exp (s j)) : ℝ) : EReal) := by
  rw [mul_zero, zero_add, zero_add]
  simp only [← EReal.coe_sub, Ideal.exp_coe, ← coe_sum, exp_sub_eq _ a', ← Finset.mul_sum]

theorem first_num (x : EReal) (a' : ℝ) (s w : Fin n → ℝ) :
    x * (0 : EReal) + ∑ j, Ideal.exp (((s j : ℝ) : EReal) - (a' : EReal)) * ((w j : ℝ) : EReal)
      = ((Real.exp (-a') * (0 + ∑ j, Real.exp (s j) * w j) : ℝ) : EReal) := by
  rw [mul_zero, zero_add, zero_add]
  simp only [← EReal.coe_sub, Ideal.exp_coe, ← EReal.coe_mul, ← coe_sum, exp_sub_eq _ a', mul_assoc, ← Finset.mul_sum]

/-- The final quotient of numerator by denominator. -/
theorem final_quot (a A C : ℝ) (hA : A ≠ 0) :
    Ideal.div ((Real.exp (-a) * C : ℝ) : EReal) ((Real.exp (-a) * A : ℝ) : EReal) = ((C / A : ℝ) : EReal) := by
  have h : Real.exp (-a) * A ≠ 0 := mul_ne_zero (Real.exp_pos (-a)).ne' hA
  rw [Ideal.div_coe h, ← EReal.coe_mul, real_quot a A C hA]

end Lifted

end Cert.Attn

end
-- ==== Proof.Step.lean ====
/-
  One chunk of the running softmax on a block of 1024 query rows, as the kernel's body computes it on vectors,
  and what it does to the invariant: with the query block and the chunk of 512 value rows arrays of reals,
  if row r has a real running maximum a, denominator exp (-a) · A r and numerator exp (-a) · C r d, then after
  the chunk it has a real maximum a', denominator exp (-a') · (A r + Σ_j exp (s r j)) and numerator
  exp (-a') · (C r d + Σ_j exp (s r j) · c j d), where s r j is the inner product of query row r and the
  chunk's value row j.
-/
import proofs.«409118_j30975304139057_3_alg».proof.Proof.Reads
import proofs.«409118_j30975304139057_3_alg».proof.Proof.Algebra

noncomputable section

namespace Cert.Attn

open Idealize.ShloMosaic Idealize.ShloMosaic.ValueIdx Cert.KernelIdeal Cert.KernelIdeal.Facts₀

/-! ## The chunk's operations on vectors -/

/-- Scores of the query block against a chunk of value rows. -/
def scoresOf (q : FVec Ideal S1024x64 .bf16) (c : FVec Ideal S512x64 .bf16) : FVec Ideal S1024x512 .f32 :=
  matmul dot_S1024x64_S512x64_S1024x512_1_1_0_0_n_n none q c (constant S1024x512 .f32 0x00000000#32)

/-- The new running maximum. -/
def mNext (m : FVec Ideal S1024x1 .f32) (s : FVec Ideal S1024x512 .f32) : FVec Ideal S1024x1 .f32 :=
  maximumf m (shapeCast S1024x1 (multiReduction .maximumf [1] S1024 s 0xFF800000#32 reduces_S1024x512_S1024 (.inl rfl) rfl) shapeCasts_S1024_S1024x1)

/-- The chunk's unnormalised weights exp (s - m'). -/
def pOf (s : FVec Ideal S1024x512 .f32) (m' : FVec Ideal S1024x1 .f32) : FVec Ideal S1024x512 .f32 :=
  exp (subf s (broadcastTo S1024x512 m' broadcasts_S1024x1_S1024x512))

/-- The rescaling factor exp (m - m'). -/
def alphaOf (m m' : FVec Ideal S1024x1 .f32) : FVec Ideal S1024x1 .f32 := exp (subf m m')

/-- The new running denominator. -/
def lNext (al l : FVec Ideal S1024x1 .f32) (p : FVec Ideal S1024x512 .f32) : FVec Ideal S1024x1 .f32 :=
  addf (mulf al l) (shapeCast S1024x1 (multiReduction .add [1] S1024 p 0x00000000#32 reduces_S1024x512_S1024 (.inl rfl) rfl) shapeCasts_S1024_S1024x1)

/-- The new running numerator. -/
def accNext (al : FVec Ideal S1024x1 .f32) (acc : FVec Ideal S1024x64 .f32) (p : FVec Ideal S1024x512 .f32) (c : FVec Ideal S512x64 .bf16) :
    FVec Ideal S1024x64 .f32 :=
  addf (mulf (broadcastTo S1024x64 al broadcasts_S1024x1_S1024x64) acc)
    (matmul dot_S1024x512_S512x64_S1024x64_1_0_0_1_n_n none (truncf .bf16 p bitsLt_bf16_f32) c (constant S1024x64 .f32 0x00000000#32))

/-- The final quotient, with the unit batch axis restored. -/
def quotOf (l : FVec Ideal S1024x1 .f32) (acc : FVec Ideal S1024x64 .f32) : FVec Ideal S1x1024x64 .f32 :=
  shapeCast S1x1024x64 (divf acc (broadcastTo S1024x64 l broadcasts_S1024x1_S1024x64)) shapeCasts_S1024x64_S1x1024x64

/-! ## The chunk's sums over the reals -/

/-- The score of query row `r` against the chunk's value row `j`. -/
def csc (q2 : Fin 1024 → Fin 64 → ℝ) (c2 : Fin 512 → Fin 64 → ℝ) (r : Fin 1024) (j : Fin 512) : ℝ := ∑ k : Fin 64, q2 r k * c2 j k
/-- The chunk's part of the denominator. -/
def cden (q2 : Fin 1024 → Fin 64 → ℝ) (c2 : Fin 512 → Fin 64 → ℝ) (r : Fin 1024) : ℝ := ∑ j : Fin 512, Real.exp (csc q2 c2 r j)
/-- The chunk's part of the numerator. -/
def cnum (q2 : Fin 1024 → Fin 64 → ℝ) (c2 : Fin 512 → Fin 64 → ℝ) (r : Fin 1024) (d : Fin 64) : ℝ :=
  ∑ j : Fin 512, Real.exp (csc q2 c2 r j) * c2 j d

/-- The invariant: every row has a real running maximum, and the running sums are the plain sums `A`, `C` scaled by exp (-maximum). -/
def Inv (A : Fin 1024 → ℝ) (C : Fin 1024 → Fin 64 → ℝ) (m l : FVec Ideal S1024x1 .f32) (acc : FVec Ideal S1024x64 .f32) : Prop :=
  ∀ r : Fin 1024, ∃ a : ℝ, m (ix2 r 0) = (a : EReal) ∧ l (ix2 r 0) = ((Real.exp (-a) * A r : ℝ) : EReal)
    ∧ ∀ d : Fin 64, acc (ix2 r d) = ((Real.exp (-a) * C r d : ℝ) : EReal)

section Chunk

variable (q : FVec Ideal S1024x64 .bf16) (c : FVec Ideal S512x64 .bf16) (q2 : Fin 1024 → Fin 64 → ℝ) (c2 : Fin 512 → Fin 64 → ℝ)
  (hq : ∀ r k, q (ix2 r k) = ((q2 r k : ℝ) : EReal)) (hc : ∀ j k, c (ix2 j k) = ((c2 j k : ℝ) : EReal))

include hq hc

/-- Every score is a real. -/
theorem scoresOf_apply (r : Fin 1024) (j : Fin 512) : scoresOf q c (ix2 r j) = ((csc q2 c2 r j : ℝ) : EReal) := by
  unfold scoresOf csc
  rw [Reads.qk_apply, coe_sum]
  exact Finset.sum_congr rfl fun k _ => by rw [hq, hc, EReal.coe_mul]

/-- The new maximum of a row is a real, whatever the old one was: a real, or -∞. -/
theorem mNext_real (m : FVec Ideal S1024x1 .f32) (r : Fin 1024) (hm : (∃ a : ℝ, m (ix2 r 0) = (a : EReal)) ∨ m (ix2 r 0) = ⊥) :
    ∃ a' : ℝ, mNext m (scoresOf q c) (ix2 r 0) = (a' : EReal) := by
  obtain ⟨b, hb⟩ := fold_max_real (fun j : Fin 512 => csc q2 c2 r j)
  have hrow : mNext m (scoresOf q c) (ix2 r 0) = max (m (ix2 r 0)) (b : EReal) := by
    unfold mNext
    rw [maximumf_apply, Reads.rowmax_apply]
    simp only [scoresOf_apply q c q2 c2 hq hc]
    rw [hb]
  rcases hm with ⟨a, ha⟩ | ha
  · exact ⟨max a b, by rw [hrow, ha]; exact (EReal.coe_strictMono.monotone.map_max).symm⟩
  · exact ⟨b, by rw [hrow, ha, max_bot_left]⟩

/-- The chunk's weights at a row whose new maximum is the real `a'`. -/
theorem pOf_apply (m' : FVec Ideal S1024x1 .f32) (r : Fin 1024) (a' : ℝ) (hm' : m' (ix2 r 0) = (a' : EReal)) (j : Fin 512) :
    pOf (scoresOf q c) m' (ix2 r j) = Ideal.exp (((csc q2 c2 r j : ℝ) : EReal) - (a' : EReal)) := by
  show Ideal.exp (scoresOf q c (ix2 r j) - broadcastTo S1024x512 m' broadcasts_S1024x1_S1024x512 (ix2 r j)) = _
  rw [Reads.bcast512_apply, hm', scoresOf_apply q c q2 c2 hq hc]

/-- The denominator after the chunk, at a row, from its parts. -/
theorem lNext_apply (al l m' : FVec Ideal S1024x1 .f32) (r : Fin 1024) (a' : ℝ) (hm' : m' (ix2 r 0) = (a' : EReal)) :
    lNext al l (pOf (scoresOf q c) m') (ix2 r 0)
      = al (ix2 r 0) * l (ix2 r 0) + ∑ j : Fin 512, Ideal.exp (((csc q2 c2 r j : ℝ) : EReal) - (a' : EReal)) := by
  unfold lNext
  rw [addf_apply, mulf_apply, Reads.rowsum_apply]
  simp only [pOf_apply q c q2 c2 hq hc m' r a' hm']

/-- The numerator after the chunk, at an entry, from its parts. -/
theorem accNext_apply (al m' : FVec Ideal S1024x1 .f32) (acc : FVec Ideal S1024x64 .f32) (r : Fin 1024) (a' : ℝ)
    (hm' : m' (ix2 r 0) = (a' : EReal)) (d : Fin 64) :
    accNext al acc (pOf (scoresOf q c) m') c (ix2 r d)
      = al (ix2 r 0) * acc (ix2 r d)
        + ∑ j : Fin 512, Ideal.exp (((csc q2 c2 r j : ℝ) : EReal) - (a' : EReal)) * ((c2 j d : ℝ) : EReal) := by
  unfold accNext
  rw [addf_apply, mulf_apply, Reads.bcast64_apply, Reads.pv_apply]
  refine congrArg (_ + ·) (Finset.sum_congr rfl fun j _ => ?_)
  rw [truncf_apply, pOf_apply q c q2 c2 hq hc m' r a' hm', hc]

/-- THE FIRST CHUNK: from maximum -∞ and zero sums. -/
theorem inv_first (m l : FVec Ideal S1024x1 .f32) (acc : FVec Ideal S1024x64 .f32)
    (hm : ∀ r, m (ix2 r 0) = ⊥) (hl : ∀ r, l (ix2 r 0) = 0) (hacc : ∀ r d, acc (ix2 r d) = 0) :
    Inv (fun r => 0 + cden q2 c2 r) (fun r d => 0 + cnum q2 c2 r d)
      (mNext m (scoresOf q c))
      (lNext (alphaOf m (mNext m (scoresOf q c))) l (pOf (scoresOf q c) (mNext m (scoresOf q c))))
      (accNext (alphaOf m (mNext m (scoresOf q c))) acc (pOf (scoresOf q c) (mNext m (scoresOf q c))) c) := by
  intro r
  obtain ⟨a', ha'⟩ := mNext_real q c q2 c2 hq hc m r (Or.inr (hm r))
  refine ⟨a', ha', ?_, fun d => ?_⟩
  · rw [lNext_apply q c q2 c2 hq hc _ _ _ r a' ha', hl r]
    exact first_den _ a' _
  · rw [accNext_apply q c q2 c2 hq hc _ _ _ r a' ha' d, hacc r d]
    exact first_num _ a' _ _

/-- A LATER CHUNK: the invariant passes through, the plain sums growing by the chunk's. -/
theorem inv_step (A : Fin 1024 → ℝ) (C : Fin 1024 → Fin 64 → ℝ) (m l : FVec Ideal S1024x1 .f32) (acc : FVec Ideal S1024x64 .f32)
    (h : Inv A C m l acc) :
    Inv (fun r => A r + cden q2 c2 r) (fun r d => C r d + cnum q2 c2 r d)
      (mNext m (scoresOf q c))
      (lNext (alphaOf m (mNext m (scoresOf q c))) l (pOf (scoresOf q c) (mNext m (scoresOf q c))))
      (accNext (alphaOf m (mNext m (scoresOf q c))) acc (pOf (scoresOf q c) (mNext m (scoresOf q c))) c) := by
  intro r
  obtain ⟨a, ha, hl, hacc⟩ := h r
  obtain ⟨a', ha'⟩ := mNext_real q c q2 c2 hq hc m r (Or.inl ⟨a, ha⟩)
  have hal : alphaOf m (mNext m (scoresOf q c)) (ix2 r 0) = Ideal.exp ((a : EReal) - (a' : EReal)) := by
    show Ideal.exp (m (ix2 r 0) - mNext m (scoresOf q c) (ix2 r 0)) = _
    rw [ha, ha']
  refine ⟨a', ha', ?_, fun d => ?_⟩
  · rw [lNext_apply q c q2 c2 hq hc _ _ _ r a' ha', hal, hl]
    exact step_den a a' (A r) _
  · rw [accNext_apply q c q2 c2 hq hc _ _ _ r a' ha' d, hal, hacc d]
    exact step_num a a' (C r d) _ _

end Chunk

/-- THE QUOTIENT: under the invariant with a nonzero plain denominator, the result block is C / A. -/
theorem quotOf_apply (A : Fin 1024 → ℝ) (C : Fin 1024 → Fin 64 → ℝ) (m l : FVec Ideal S1024x1 .f32) (acc : FVec Ideal S1024x64 .f32)
    (h : Inv A C m l acc) (hA : ∀ r, A r ≠ 0) (r : Fin 1024) (d : Fin 64) :
    quotOf l acc (ix3 0 r d) = ((C r d / A r : ℝ) : EReal) := by
  obtain ⟨a, -, hl, hacc⟩ := h r
  unfold quotOf
  rw [Reads.castOut_apply, divf_apply, Reads.bcast64_apply, hl, hacc d]
  exact final_quot a (A r) (C r d) (hA r)

end Cert.Attn

end
-- ==== Proof.Payload.lean ====
/-
  What one grid point leaves in the output's staging buffer.  The body runs the chunk step eight times, from
  maximum -∞ and zero sums, over the chunks of 512 value rows at row offsets 0, 512, …, 3584 of the batch's
  4096, and divides.  By the invariant the plain sums after the eight chunks are the sums over all 4096 value
  rows split into eight runs of 512, and the quotient is `battn`.
-/
import proofs.«409118_j30975304139057_3_alg».proof.Proof.Gen.KernelIdeal.Value
import proofs.«409118_j30975304139057_3_alg».proof.Proof.Spec
import proofs.«409118_j30975304139057_3_alg».proof.Proof.Step

set_option maxRecDepth 16384

noncomputable section

namespace Cert.Attn

open Idealize.ShloMosaic Idealize.ShloMosaic.ValueIdx Idealize.ShloMosaic.TcCoe Idealize.SL.Sem Cert.KernelIdeal Cert.KernelIdeal.Gen
open Cert.KernelIdeal.Facts₀ Idealize.ShloMosaic.Tactic

/-! ## The eight chunks composed -/

/-- The running state: maximum, denominator, numerator. -/
abbrev St := FVec Ideal S1024x1 .f32 × FVec Ideal S1024x1 .f32 × FVec Ideal S1024x64 .f32

/-- Before the first chunk: maximum -∞, sums zero. -/
def st0 : St :=
  (broadcast S1024x1 (Scalar.ofBits .f32 0xFF800000#32), broadcast S1024x1 (Scalar.ofBits .f32 0x00000000#32),
    broadcast S1024x64 (Scalar.ofBits .f32 0x00000000#32))

/-- One chunk applied to the state. -/
def stepSt (q : FVec Ideal S1024x64 .bf16) (c : FVec Ideal S512x64 .bf16) (st : St) : St :=
  (mNext st.1 (scoresOf q c),
    lNext (alphaOf st.1 (mNext st.1 (scoresOf q c))) st.2.1 (pOf (scoresOf q c) (mNext st.1 (scoresOf q c))),
    accNext (alphaOf st.1 (mNext st.1 (scoresOf q c))) st.2.2 (pOf (scoresOf q c) (mNext st.1 (scoresOf q c))) c)

/-- A loaded query block / chunk of value rows without its unit batch axis. -/
def dropQ (x0 : Vec Ideal S1x1024x64 .bf16) : FVec Ideal S1024x64 .bf16 := shapeCast S1024x64 x0 Facts₀.shapeCasts_S1x1024x64_S1024x64
def dropV (v : Vec Ideal S1x512x64 .bf16) : FVec Ideal S512x64 .bf16 := shapeCast S512x64 v Facts₀.shapeCasts_S1x512x64_S512x64

/-- The state after the eight chunks. -/
def st8 (x0 : Vec Ideal S1x1024x64 .bf16) (v0 v1 v2 v3 v4 v5 v6 v7 : Vec Ideal S1x512x64 .bf16) : St :=
  stepSt (dropQ x0) (dropV v7) (stepSt (dropQ x0) (dropV v6) (stepSt (dropQ x0) (dropV v5) (stepSt (dropQ x0) (dropV v4)
    (stepSt (dropQ x0) (dropV v3) (stepSt (dropQ x0) (dropV v2) (stepSt (dropQ x0) (dropV v1) (stepSt (dropQ x0) (dropV v0) st0)))))))

/-- The body's result block from its loads. -/
def flash (x0 : Vec Ideal S1x1024x64 .bf16) (v0 v1 v2 v3 v4 v5 v6 v7 : Vec Ideal S1x512x64 .bf16) : FVec Ideal S1x1024x64 .f32 :=
  quotOf (st8 x0 v0 v1 v2 v3 v4 v5 v6 v7).2.1 (st8 x0 v0 v1 v2 v3 v4 v5 v6 v7).2.2

/-! ## The 4096 value rows as eight runs of 512 -/

/-- Row `j` of chunk `i` among the batch's 4096 value rows. -/
def chunkIx (i : Fin 8) (j : Fin 512) : Fin 4096 := ⟨512 * i.val + j.val, by have := i.isLt; have := j.isLt; omega⟩

/-- A sum over the 4096 rows is the sum of the eight chunks' sums. -/
theorem sum_chunks (g : Fin 4096 → ℝ) :
    ∑ u, g u = 0 + ∑ j, g (chunkIx 0 j) + ∑ j, g (chunkIx 1 j) + ∑ j, g (chunkIx 2 j) + ∑ j, g (chunkIx 3 j)
      + ∑ j, g (chunkIx 4 j) + ∑ j, g (chunkIx 5 j) + ∑ j, g (chunkIx 6 j) + ∑ j, g (chunkIx 7 j) := by
  have e : ∑ u, g u = ∑ i : Fin 8, ∑ j : Fin 512, g (chunkIx i j) := by
    rw [← Fintype.sum_prod_type (f := fun p : Fin 8 × Fin 512 => g (chunkIx p.1 p.2))]
    refine (Fintype.sum_equiv (finProdFinEquiv : Fin 8 × Fin 512 ≃ Fin 4096) _ _ (fun p => congrArg g (Fin.ext ?_))).symm
    show 512 * p.1.val + p.2.val = p.2.val + 512 * p.1.val
    omega
  rw [e, Fin.sum_univ_eight, zero_add]

/-! ## The invariant on states -/

section Run

variable (x0 : Vec Ideal S1x1024x64 .bf16) (qr : SQB.Idx → ℝ) (vr : SVB.Idx → ℝ)
  (h0 : ∀ y, x0 y = ((qr y : ℝ) : EReal))

/-- The query block's reals by row and feature. -/
abbrev q2 (qr : SQB.Idx → ℝ) : Fin 1024 → Fin 64 → ℝ := fun r k => qr (ix3 0 r k)
/-- Chunk `i`'s reals by row and feature. -/
abbrev c2 (vr : SVB.Idx → ℝ) (i : Fin 8) : Fin 512 → Fin 64 → ℝ := fun j k => vr (ix3 0 (chunkIx i j) k)

include h0 in
theorem dropQ_apply (r : Fin 1024) (k : Fin 64) : dropQ x0 (ix2 r k) = ((q2 qr r k : ℝ) : EReal) := by
  unfold dropQ; rw [Reads.castQ_apply, h0]

theorem dropV_apply (v : Vec Ideal S1x512x64 .bf16) (i : Fin 8) (hv : ∀ j k, v (ix3 0 j k) = ((vr (ix3 0 (chunkIx i j) k) : ℝ) : EReal))
    (j : Fin 512) (k : Fin 64) : dropV v (ix2 j k) = ((c2 vr i j k : ℝ) : EReal) := by
  unfold dropV; rw [Reads.castV_apply, hv]

theorem st0_m (r : Fin 1024) : st0.1 (ix2 r 0) = ⊥ := Reads.ofBits_neg_inf_f32
theorem st0_l (r : Fin 1024) : st0.2.1 (ix2 r 0) = 0 := Ideal.ofBits_zero_f32
theorem st0_acc (r : Fin 1024) (d : Fin 64) : st0.2.2 (ix2 r d) = 0 := Ideal.ofBits_zero_f32

variable (v0 v1 v2 v3 v4 v5 v6 v7 : Vec Ideal S1x512x64 .bf16)
  (hv0 : ∀ j k, v0 (ix3 0 j k) = ((vr (ix3 0 (chunkIx 0 j) k) : ℝ) : EReal))
  (hv1 : ∀ j k, v1 (ix3 0 j k) = ((vr (ix3 0 (chunkIx 1 j) k) : ℝ) : EReal))
  (hv2 : ∀ j k, v2 (ix3 0 j k) = ((vr (ix3 0 (chunkIx 2 j) k) : ℝ) : EReal))
  (hv3 : ∀ j k, v3 (ix3 0 j k) = ((vr (ix3 0 (chunkIx 3 j) k) : ℝ) : EReal))
  (hv4 : ∀ j k, v4 (ix3 0 j k) = ((vr (ix3 0 (chunkIx 4 j) k) : ℝ) : EReal))
  (hv5 : ∀ j k, v5 (ix3 0 j k) = ((vr (ix3 0 (chunkIx 5 j) k) : ℝ) : EReal))
  (hv6 : ∀ j k, v6 (ix3 0 j k) = ((vr (ix3 0 (chunkIx 6 j) k) : ℝ) : EReal))
  (hv7 : ∀ j k, v7 (ix3 0 j k) = ((vr (ix3 0 (chunkIx 7 j) k) : ℝ) : EReal))

include h0 hv0 hv1 hv2 hv3 hv4 hv5 hv6 hv7

/-- After the eight chunks the invariant holds with the plain sums over all eight chunks. -/
theorem inv8 :
    Inv (fun r => 0 + cden (q2 qr) (c2 vr 0) r + cden (q2 qr) (c2 vr 1) r + cden (q2 qr) (c2 vr 2) r + cden (q2 qr) (c2 vr 3) r
          + cden (q2 qr) (c2 vr 4) r + cden (q2 qr) (c2 vr 5) r + cden (q2 qr) (c2 vr 6) r + cden (q2 qr) (c2 vr 7) r)
        (fun r d => 0 + cnum (q2 qr) (c2 vr 0) r d + cnum (q2 qr) (c2 vr 1) r d + cnum (q2 qr) (c2 vr 2) r d + cnum (q2 qr) (c2 vr 3) r d
          + cnum (q2 qr) (c2 vr 4) r d + cnum (q2 qr) (c2 vr 5) r d + cnum (q2 qr) (c2 vr 6) r d + cnum (q2 qr) (c2 vr 7) r d)
        (st8 x0 v0 v1 v2 v3 v4 v5 v6 v7).1 (st8 x0 v0 v1 v2 v3 v4 v5 v6 v7).2.1 (st8 x0 v0 v1 v2 v3 v4 v5 v6 v7).2.2 := by
  have hq := dropQ_apply x0 qr h0
  have i1 := inv_first (dropQ x0) (dropV v0) (q2 qr) (c2 vr 0) hq (dropV_apply vr v0 0 hv0) st0.1 st0.2.1 st0.2.2 st0_m st0_l st0_acc
  have i2 := inv_step (dropQ x0) (dropV v1) (q2 qr) (c2 vr 1) hq (dropV_apply vr v1 1 hv1) _ _ _ _ _ i1
  have i3 := inv_step (dropQ x0) (dropV v2) (q2 qr) (c2 vr 2) hq (dropV_apply vr v2 2 hv2) _ _ _ _ _ i2
  have i4 := inv_step (dropQ x0) (dropV v3) (q2 qr) (c2 vr 3) hq (dropV_apply vr v3 3 hv3) _ _ _ _ _ i3
  have i5 := inv_step (dropQ x0) (dropV v4) (q2 qr) (c2 vr 4) hq (dropV_apply vr v4 4 hv4) _ _ _ _ _ i4
  have i6 := inv_step (dropQ x0) (dropV v5) (q2 qr) (c2 vr 5) hq (dropV_apply vr v5 5 hv5) _ _ _ _ _ i5
  have i7 := inv_step (dropQ x0) (dropV v6) (q2 qr) (c2 vr 6) hq (dropV_apply vr v6 6 hv6) _ _ _ _ _ i6
  exact inv_step (dropQ x0) (dropV v7) (q2 qr) (c2 vr 7) hq (dropV_apply vr v7 7 hv7) _ _ _ _ _ i7

/-- The body's result block is `battn` of the reals. -/
theorem flash_eq : flash x0 v0 v1 v2 v3 v4 v5 v6 v7 = fun y => ((battn qr vr y : ℝ) : EReal) := by
  funext y
  obtain ⟨z, r, d, rfl⟩ : ∃ (z : Fin 1) (r : Fin 1024) (d : Fin 64), y = ix3 z r d := ⟨y 0, y 1, y 2, eq_ix3 y⟩
  obtain rfl : z = 0 := Subsingleton.elim _ _
  have hA : ∀ r, (0 + cden (q2 qr) (c2 vr 0) r + cden (q2 qr) (c2 vr 1) r + cden (q2 qr) (c2 vr 2) r + cden (q2 qr) (c2 vr 3) r
          + cden (q2 qr) (c2 vr 4) r + cden (q2 qr) (c2 vr 5) r + cden (q2 qr) (c2 vr 6) r + cden (q2 qr) (c2 vr 7) r) ≠ 0 := fun r => by
    have hp : ∀ i, 0 < cden (q2 qr) (c2 vr i) r := fun i => Finset.sum_pos (fun j _ => Real.exp_pos _) Finset.univ_nonempty
    have := hp 0; have := hp 1; have := hp 2; have := hp 3; have := hp 4; have := hp 5; have := hp 6; have := hp 7
    positivity
  unfold flash
  rw [quotOf_apply _ _ _ _ _ (inv8 x0 qr vr h0 v0 v1 v2 v3 v4 v5 v6 v7 hv0 hv1 hv2 hv3 hv4 hv5 hv6 hv7) hA r d]
  congr 1
  show _ = smAvg (fun u => bscore qr vr r u) (fun u => vr (ix3 0 u d))
  unfold smAvg
  rw [sum_chunks (fun u => Real.exp (bscore qr vr r u) * vr (ix3 0 u d)), sum_chunks (fun u => Real.exp (bscore qr vr r u))]
  rfl

end Run

/-! ## The loads -/

/-- The rows `o … o + 511` of the batch's value rows, loaded: row `j` of the load is row `o + j`. -/
theorem chunk_apply (x1 : Vec Ideal S1x4096x64 .bf16) (vr : SVB.Idx → ℝ) (h1 : ∀ y, x1 y = ((vr y : ℝ) : EReal))
    (i : Fin 8) (o : ℕ) (ho : o = 512 * i.val) (inb : ∀ a, (![0, o, 0] : Fin 3 → ℕ) a + S1x512x64.size a ≤ S1x4096x64.size a)
    (j : Fin 512) (k : Fin 64) :
    View.ld x1 (Rect.unit ![0, o, 0] S1x512x64.size inb) (ix3 0 j k) = ((vr (ix3 0 (chunkIx i j) k) : ℝ) : EReal) := by
  subst ho
  show x1 _ = _
  rw [h1]
  refine congrArg (fun y => ((vr y : ℝ) : EReal)) (funext fun a => Fin.ext ?_)
  match a with
  | ⟨0, _⟩ => rfl
  | ⟨1, _⟩ => show 512 * i.val + 1 * j.val = 512 * i.val + j.val; omega
  | ⟨2, _⟩ => show 0 + 1 * k.val = k.val; omega

/-- Rows `o … o + 511` lie inside the 4096 rows when `o + 512 ≤ 4096`. -/
theorem chunk_inb (o : ℕ) (h : o + 512 ≤ 4096) : ∀ a, (![0, o, 0] : Fin 3 → ℕ) a + S1x512x64.size a ≤ S1x4096x64.size a := fun a => by
  match a with
  | ⟨0, _⟩ => show 0 + 1 ≤ 1; omega
  | ⟨1, _⟩ => exact h
  | ⟨2, _⟩ => show 0 + 64 ≤ 64; omega

/-- The chunk of value rows loaded at row offset `o`. -/
abbrev ldc (x1 : Vec Ideal S1x4096x64 .bf16) (o : ℕ) (h : o + 512 ≤ 4096) : Vec Ideal S1x512x64 .bf16 :=
  View.ld x1 (Rect.unit ![0, o, 0] S1x512x64.size (chunk_inb o h))

theorem hz3 : (![0, 0, 0] : Fin 3 → ℕ) = fun _ => 0 := funext fun a => by
  match a with
  | ⟨0, _⟩ => rfl
  | ⟨1, _⟩ => rfl
  | ⟨2, _⟩ => rfl

/-- What one grid point leaves in the output's staging buffer, on blocks of reals: `battn` of the query block and the batch's value rows. -/
theorem block_eq (c : Dev nD) (i : grid0.Coords) (arg2 : Memref sig .tc .vmem S1x1024x64 .bf16) (harg2 : arg2.IsWhole)
    (arg3 : Memref sig .tc .vmem S1x4096x64 .bf16) (harg3 : arg3.IsWhole) (arg4 : Memref sig .tc .vmem S1x1024x64 .f32) (harg4 : arg4.IsWhole)
    (x0 : Vec Ideal S1x1024x64 .bf16) (x1 : Vec Ideal S1x4096x64 .bf16) (qr : SQB.Idx → ℝ) (vr : SVB.Idx → ℝ)
    (h0 : ∀ y, x0 y = ((qr y : ℝ) : EReal)) (h1 : ∀ y, x1 y = ((vr y : ℝ) : EReal)) :
    out0_A_2 (F := Ideal) c i arg2 harg2 arg3 harg3 arg4 harg4 x0 x1 = fun y => ((battn qr vr y : ℝ) : EReal) := by
  unfold out0_A_2
  rw [View.read_writes_eq_canon _ _ _ (cover0_A_2 c i arg2 harg2 arg3 harg3 arg4 harg4 x0 x1)]
  unfold kernelRun0_A
  dsimp only
  sl_unfold_words
  rw [View.canon_unit_zero hz3]
  simp only [View.readAt_eq_ld, harg2.read_unread, harg3.read_unread, View.ld_unit_zero (S := S1x1024x64) hz3]
  exact flash_eq x0 qr vr h0 (ldc x1 0 (by omega)) (ldc x1 512 (by omega)) (ldc x1 1024 (by omega)) (ldc x1 1536 (by omega))
    (ldc x1 2048 (by omega)) (ldc x1 2560 (by omega)) (ldc x1 3072 (by omega)) (ldc x1 3584 (by omega))
    (chunk_apply x1 vr h1 0 0 (by decide) _) (chunk_apply x1 vr h1 1 512 (by decide) _) (chunk_apply x1 vr h1 2 1024 (by decide) _)
    (chunk_apply x1 vr h1 3 1536 (by decide) _) (chunk_apply x1 vr h1 4 2048 (by decide) _) (chunk_apply x1 vr h1 5 2560 (by decide) _)
    (chunk_apply x1 vr h1 6 3072 (by decide) _) (chunk_apply x1 vr h1 7 3584 (by decide) _)

end Cert.Attn

end
-- ==== Proof.KernelArray.lean ====
import proofs.«409118_j30975304139057_3_alg».proof.Proof.Payload

set_option maxRecDepth 16384

noncomputable section

namespace Cert.Attn

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The block indices of the three windows at grid point `t`: the batch is `t / 4`, the row block `t % 4`; the value
    window takes the batch's whole array. Decided over the 16 points. -/
private theorem idx_facts : ∀ t : Fin cfg0.N,
    win0_0.index t (0 : Fin 3) = t.val / 4 ∧ win0_0.index t (1 : Fin 3) = t.val % 4 ∧ win0_0.index t (2 : Fin 3) = 0
  ∧ win0_1.index t (0 : Fin 3) = t.val / 4 ∧ win0_1.index t (1 : Fin 3) = 0 ∧ win0_1.index t (2 : Fin 3) = 0
  ∧ win0_2.index t (0 : Fin 3) = t.val / 4 ∧ win0_2.index t (1 : Fin 3) = t.val % 4 ∧ win0_2.index t (2 : Fin 3) = 0 :=
  (by decide +kernel : ∀ t : Fin grid0.N, _)

/-- The query array the kernel reads is the first argument: the conversion to the narrower float type before it is
    exact on extended reals. -/
private theorem arr0_eq (c : Dev nD) : (V m c main_v0 : S4x4096x64.Idx → EReal) = fun i => m ((c.tc : Thread nD τ).loc main_arg0) i := by
  dsimp only [Gen.V, Gen.hostOps0]; after_results; rfl

/-- The value array the kernel reads is the second argument, for the same reason. -/
private theorem arr1_eq (c : Dev nD) : (V m c main_v1 : S4x4096x64.Idx → EReal) = fun i => m ((c.tc : Thread nD τ).loc main_arg1) i := by
  dsimp only [Gen.V, Gen.hostOps0]; after_results; rfl

/-- Row block `r` of batch `b` of the queries: rows `1024 r … 1024 r + 1023`. -/
private def qblk (Qr : SA.Idx → ℝ) (b r : Fin 4) : SQB.Idx → ℝ := fun y =>
  Qr (ix3 b (⟨1024 * r.val + (y 1).val, by have h1 : (y 1).val < 1024 := (y 1).isLt; have := r.isLt; omega⟩ : Fin 4096) (y 2))

/-- All value rows of batch `b`. -/
private def vblk (Vr : SA.Idx → ℝ) (b : Fin 4) : SVB.Idx → ℝ := fun y => Vr (ix3 b (y 1) (y 2))

/-- Attention on a block is attention on the array at the block's place: the scores and the weighted rows are the
    same sums, term by term. -/
private theorem battn_blk (Qr Vr : SA.Idx → ℝ) (b r : Fin 4) (y : SQB.Idx) (i : SA.Idx)
    (h0 : (i 0).val = b.val) (h1 : (i 1).val = 1024 * r.val + (y 1).val) (h2 : (i 2).val = (y 2).val) :
    battn (qblk Qr b r) (vblk Vr b) y = attn Qr Vr i := by
  have e0 : i 0 = b := Fin.ext h0
  have e1 : i 1 = (⟨1024 * r.val + (y 1).val, by have h1 : (y 1).val < 1024 := (y 1).isLt; have := r.isLt; omega⟩ : Fin 4096) := Fin.ext h1
  have e2 : i 2 = y 2 := Fin.ext h2
  unfold battn attn
  rw [e0, e1, e2]
  rfl

/-- The query window's block at point `t` holds row block `t % 4` of batch `t / 4`. -/
private theorem iblk0_eq (c : Dev nD) (Qr : SA.Idx → ℝ)
    (hQ : ∀ i, m ((c.tc : Thread nD τ).loc main_arg0) i = ((Qr i : ℝ) : EReal))
    (t : Fin cfg0.N) (b r : Fin 4) (hb : b.val = t.val / 4) (hr : r.val = t.val % 4) (y : S1x1024x64.Idx) :
    (iblk m c 0 t : Vec Ideal S1x1024x64 .bf16) y = ((qblk Qr b r y : ℝ) : EReal) := by
  obtain ⟨a0, a1, a2, -⟩ := idx_facts t
  unfold iblk
  rw [View.read_apply]
  show (V m c main_v0 : S4x4096x64.Idx → EReal) _ = _
  rw [arr0_eq m c]
  show m ((c.tc : Thread nD τ).loc main_arg0) _ = _
  rw [hQ]
  unfold qblk
  congr 2
  funext a
  apply Fin.ext
  have y0 : (y 0).val < 1 := (y 0).isLt
  match a with
  | ⟨0, _⟩ => show win0_0.index t (0 : Fin 3) * 1 + 1 * (y 0).val = b.val; omega
  | ⟨1, _⟩ => show win0_0.index t (1 : Fin 3) * 1024 + 1 * (y 1).val = 1024 * r.val + (y 1).val; omega
  | ⟨2, _⟩ => show win0_0.index t (2 : Fin 3) * 64 + 1 * (y 2).val = (y 2).val; omega

/-- The value window's block at point `t` holds all rows of batch `t / 4`. -/
private theorem iblk1_eq (c : Dev nD) (Vr : SA.Idx → ℝ)
    (hV : ∀ i, m ((c.tc : Thread nD τ).loc main_arg1) i = ((Vr i : ℝ) : EReal))
    (t : Fin cfg0.N) (b : Fin 4) (hb : b.val = t.val / 4) (y : S1x4096x64.Idx) :
    (iblk m c 1 t : Vec Ideal S1x4096x64 .bf16) y = ((vblk Vr b y : ℝ) : EReal) := by
  obtain ⟨-, -, -, a0, a1, a2, -⟩ := idx_facts t
  unfold iblk
  rw [View.read_apply]
  show (V m c main_v1 : S4x4096x64.Idx → EReal) _ = _
  rw [arr1_eq m c]
  show m ((c.tc : Thread nD τ).loc main_arg1) _ = _
  rw [hV]
  unfold vblk
  congr 2
  funext a
  apply Fin.ext
  have y0 : (y 0).val < 1 := (y 0).isLt
  match a with
  | ⟨0, _⟩ => show win0_1.index t (0 : Fin 3) * 1 + 1 * (y 0).val = b.val; omega
  | ⟨1, _⟩ => show win0_1.index t (1 : Fin 3) * 4096 + 1 * (y 1).val = (y 1).val; omega
  | ⟨2, _⟩ => show win0_1.index t (2 : Fin 3) * 64 + 1 * (y 2).val = (y 2).val; omega

/-- What point `t` writes back is its block of the attention array. -/
private theorem flushed_eq (c : Dev nD) (Qr Vr : SA.Idx → ℝ)
    (hQ : ∀ i, m ((c.tc : Thread nD τ).loc main_arg0) i = ((Qr i : ℝ) : EReal))
    (hV : ∀ i, m ((c.tc : Thread nD τ).loc main_arg1) i = ((Vr i : ℝ) : EReal)) (t : Fin cfg0.N) :
    (dats m 0 c).flushed 2 t = ((cfg0.win 2).blk t).view.read (Elt Ideal) (fun i => ((attn Qr Vr i : ℝ) : EReal)) := by
  have hN : cfg0.N = 16 := N_0
  have ht : t.val < 16 := hN ▸ t.isLt
  obtain ⟨b, hb⟩ : ∃ b : Fin 4, b.val = t.val / 4 := ⟨⟨t.val / 4, by omega⟩, rfl⟩
  obtain ⟨r, hr⟩ : ∃ r : Fin 4, r.val = t.val % 4 := ⟨⟨t.val % 4, by omega⟩, rfl⟩
  obtain ⟨-, -, -, -, -, -, a0, a1, a2⟩ := idx_facts t
  rw [Value.flushed2_A]
  rw [block_eq c _ _ _ _ _ _ _ _ _ (qblk Qr b r) (vblk Vr b) (iblk0_eq m c Qr hQ t b r hb hr) (iblk1_eq m c Vr hV t b hb)]
  funext j
  show (((battn (qblk Qr b r) (vblk Vr b) j : ℝ) : EReal)) = ((attn Qr Vr (((cfg0.win 2).blk t).view.emb j) : ℝ) : EReal)
  have j0 : (j 0).val < 1 := (j 0).isLt
  refine congrArg _ (battn_blk Qr Vr b r j _ ?_ ?_ ?_)
  · show win0_2.index t (0 : Fin 3) * 1 + 1 * (j 0).val = b.val; omega
  · show win0_2.index t (1 : Fin 3) * 1024 + 1 * (j 1).val = 1024 * r.val + (j 1).val; omega
  · show win0_2.index t (2 : Fin 3) * 64 + 1 * (j 2).val = (j 2).val; omega

/-- An index of the array is in point `t`'s block iff each coordinate is in the block's range on its axis. -/
private theorem mem_blk (t : Fin cfg0.N) (i : S4x4096x64.Idx) :
    i ∈ ((cfg0.win 2).blk t).view.set ↔ ∀ a : Fin 3, win0_2.index t a * S1x1024x64.size a ≤ (i a).val ∧ (i a).val < win0_2.index t a * S1x1024x64.size a + S1x1024x64.size a := by
  show i ∈ ((View.whole main_v2).slice (win0_2.rect t)).set ↔ _
  rw [View.set_slice_whole, Rect.mem_set_unit]
  exact Iff.rfl

/-- Every index `(b, q, d)` of the array lies in the block of the point with batch `b` and row block `q / 1024`. -/
private theorem cover (i : S4x4096x64.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 64 := (i 2).isLt
  have hN : cfg0.N = 16 := N_0
  obtain ⟨t, ht⟩ : ∃ t : Fin cfg0.N, t.val = 4 * (i 0).val + (i 1).val / 1024 := ⟨⟨4 * (i 0).val + (i 1).val / 1024, by omega⟩, rfl⟩
  obtain ⟨-, -, -, -, -, -, a0, a1, a2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- On argument arrays of reals the kernel's output array after the run is `attn`, index by index. -/
theorem arr_eq (c : Dev nD) (Qr Vr : SA.Idx → ℝ)
    (hQ : ∀ i, m ((c.tc : Thread nD τ).loc main_arg0) i = ((Qr i : ℝ) : EReal))
    (hV : ∀ i, m ((c.tc : Thread nD τ).loc main_arg1) i = ((Vr i : ℝ) : EReal)) :
    (dats m 0 c).arrAt 2 cfg0.N = fun i => ((attn Qr Vr i : ℝ) : EReal) :=
  (dats m 0 c).arrAt_eq_of_cover 2 (fun i => ((attn Qr Vr i : ℝ) : EReal))
    (fun t _ => flushed_eq m c Qr Vr hQ hV t) cover

end Cert.Attn

end
-- ==== Proof.lean ====
/-
  Attention with keys = values, no scale and no mask, on f32[4, 4096, 64] inputs: the kernel computes each
  block of 1024 query rows against its batch's 4096 value rows in eight chunks of 512, keeping a running row
  maximum m, a running denominator l and a running numerator acc (rescaled by exp (m_old - m_new) at every
  chunk) and divides once at the end; the reference takes the row maximum, exponentiates, normalises and
  multiplies by the values.  Over the extended reals, on finite inputs, every score is a real, every running
  maximum is a real, and after chunk i   l = exp (-m) · Σ_{v < 512 (i+1)} exp (s v),
  acc[d] = exp (-m) · Σ_{v < 512 (i+1)} exp (s v) · V[v,d];   the factor exp (-m) cancels in acc / l, as the
  reference's exp (-max) cancels in its normalisation: both are Σ_v exp (s v) V[v,d] / Σ_v exp (s v)
  (Spec.lean `attn`).  The roundings to bf16 are the identity on the extended reals.
  Frames: the generated frame runs.  `preserves`: the idealization rewrote nothing.
-/
import proofs.«409118_j30975304139057_3_alg».proof.Defs
import proofs.«409118_j30975304139057_3_alg».proof.Proof.Gen.Kernel
import proofs.«409118_j30975304139057_3_alg».proof.Proof.Gen.Kernel.Skeleton
import proofs.«409118_j30975304139057_3_alg».proof.Proof.Gen.Kernel.Launch
import proofs.«409118_j30975304139057_3_alg».proof.Proof.Gen.Kernel.Points
import proofs.«409118_j30975304139057_3_alg».proof.Proof.Gen.Kernel.Frame
import proofs.«409118_j30975304139057_3_alg».proof.Proof.Gen.KernelIdeal
import proofs.«409118_j30975304139057_3_alg».proof.Proof.Gen.KernelIdeal.Skeleton
import proofs.«409118_j30975304139057_3_alg».proof.Proof.Gen.KernelIdeal.Launch
import proofs.«409118_j30975304139057_3_alg».proof.Proof.Gen.KernelIdeal.Points
import proofs.«409118_j30975304139057_3_alg».proof.Proof.Gen.KernelIdeal.Frame
import proofs.«409118_j30975304139057_3_alg».proof.Proof.Gen.ReferenceIdeal
import proofs.«409118_j30975304139057_3_alg».proof.Proof.Gen.Pre_finite_inputs
import proofs.«409118_j30975304139057_3_alg».proof.Proof.Gen.KernelIdeal.Value
import proofs.«409118_j30975304139057_3_alg».proof.Proof.Gen.ReferenceIdeal.Run
import proofs.«409118_j30975304139057_3_alg».proof.Proof.Gen.ReferenceIdeal.Read
import proofs.«409118_j30975304139057_3_alg».proof.Proof.Finite
import proofs.«409118_j30975304139057_3_alg».proof.Proof.RefValue
import proofs.«409118_j30975304139057_3_alg».proof.Proof.KernelArray
import Idealize.ShloMosaic.Adequacy
import Idealize.ShloMosaic.Init

noncomputable section

namespace Cert.Proof

open Idealize.ShloMosaic Idealize.SL.Sem

section Claims

variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `attn` of the (real) argument arrays. -/
theorem algebraic : Cert.algebraic_KernelIdeal_ReferenceIdeal := by
  intro m ρ m' ρ' hpre hagree
  have hfin : ∀ c : Dev Cert.KernelIdeal.nD, ∃ Qr Vr : Cert.Attn.SA.Idx → ℝ,
      (∀ i, m ((c.tc : Thread Cert.KernelIdeal.nD Cert.KernelIdeal.τ).loc Cert.KernelIdeal.main_arg0) i = ((Qr i : ℝ) : EReal))
      ∧ (∀ i, m ((c.tc : Thread Cert.KernelIdeal.nD Cert.KernelIdeal.τ).loc Cert.KernelIdeal.main_arg1) i = ((Vr i : ℝ) : EReal)) :=
    fun c => Cert.Attn.real_of_pre _ _ (hpre c)
  choose Qr Vr hQ hV using hfin
  refine ⟨fun c => fun i => ((Cert.Attn.attn (Qr c) (Vr c) i : ℝ) : EReal), ?_, ?_⟩
  · exact (θ_run Cert.KernelIdeal.defs _ _).mono
      (fun r h c => ⟨(h c).1.trans (Cert.Attn.arr_eq m c (Qr c) (Vr c) (hQ c) (hV c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v12_eq]
    exact Cert.Attn.ref_eq (Qr c) (Vr c) _ _ (fun i => by rw [(hagree c).1]; exact hQ c i) (fun i => by rw [(hagree c).2]; exact hV c i)

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
